-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S64x64 : Shape := ⟨2, ![64, 64]⟩
abbrev S64 : Shape := ⟨1, ![64]⟩
abbrev S2x500000 : Shape := ⟨2, ![2, 500000]⟩
abbrev S2x1250000 : Shape := ⟨2, ![2, 1250000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S200000x64 .f32) (main_arg1 : FVec F S64x64 .f32) (main_arg2 : FVec F S64 .f32) (main_arg3 : IVec S2x500000 32) (main_arg4 : IVec S2x1250000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S200000x64 : Shape := ⟨2, ![200000, 64]⟩
abbrev S64x64 : Shape := ⟨2, ![64, 64]⟩
abbrev S64 : Shape := ⟨1, ![64]⟩
abbrev S2x500000 : Shape := ⟨2, ![2, 500000]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩
abbrev S1261568x64 : Shape := ⟨2, ![1261568, 64]⟩
abbrev S1261568 : Shape := ⟨1, ![1261568]⟩
abbrev S1261568x1 : Shape := ⟨2, ![1261568, 1]⟩
abbrev S16384x64 : Shape := ⟨2, ![16384, 64]⟩
abbrev S16384x1 : Shape := ⟨2, ![16384, 1]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S507904x64 : Shape := ⟨2, ![507904, 64]⟩
abbrev S1x507904 : Shape := ⟨2, ![1, 507904]⟩
abbrev S1x16384 : Shape := ⟨2, ![1, 16384]⟩
abbrev S16384 : Shape := ⟨1, ![16384]⟩
abbrev S507904 : Shape := ⟨1, ![507904]⟩

abbrev nBuf : Space → Nat
  | .hbm => 98
  | .vmem => 12
  | .smem => 0
  | _ => 0

abbrev bufTy : (tb : Table) → Fin (tcTables nBuf tb) → BufTy
  | .hbm, ⟨0, _⟩ => ⟨S200000x64, .f32⟩
  | .hbm, ⟨1, _⟩ => ⟨S64x64, .f32⟩
  | .hbm, ⟨2, _⟩ => ⟨S64, .f32⟩
  | .hbm, ⟨3, _⟩ => ⟨S2x500000, .i32⟩
  | .hbm, ⟨4, _⟩ => ⟨S2x1250000, .i32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .f32⟩
  | .hbm, ⟨10, _⟩ => ⟨S1250000, .f32⟩
  | .hbm, ⟨11, _⟩ => ⟨S_, .f32⟩
  | .hbm, ⟨12, _⟩ => ⟨S200000, .f32⟩
  | .hbm, ⟨13, _⟩ => ⟨S1250000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S200000, .f32⟩
  | .hbm, ⟨22, _⟩ => ⟨S_, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S1250000, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S_, .i32⟩
  | .hbm, ⟨55, _⟩ => ⟨S_, .f32⟩
  | .hbm, ⟨56, _⟩ => ⟨S1261568x64, .f32⟩
  | .hbm, ⟨57, _⟩ => ⟨S_, .i32⟩
  | .hbm, ⟨58, _⟩ => ⟨S_, .f32⟩
  | .hbm, ⟨59, _⟩ => ⟨S1261568, .f32⟩
  | .hbm, ⟨60, _⟩ => ⟨S1261568x1, .f32⟩
  | .hbm, ⟨61, _⟩ => ⟨S1261568x64, .f32⟩
  | .hbm, ⟨62, _⟩ => ⟨S1250000x64, .f32⟩
  | .hbm, ⟨63, _⟩ => ⟨S_, .f32⟩
  | .hbm, ⟨64, _⟩ => ⟨S200000x64, .f32⟩
  | .hbm, ⟨65, _⟩ => ⟨S1250000x1, .i32⟩
  | .hbm, ⟨66, _⟩ => ⟨S200000x64, .f32⟩
  | .hbm, ⟨67, _⟩ => ⟨S1x500000, .i32⟩
  | .hbm, ⟨68, _⟩ => ⟨S500000, .i32⟩
  | .hbm, ⟨69, _⟩ => ⟨S1x500000, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x64, .f32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x64, .f32⟩
  | .hbm, ⟨89, _⟩ => ⟨S_, .i32⟩
  | .hbm, ⟨90, _⟩ => ⟨S_, .f32⟩
  | .hbm, ⟨91, _⟩ => ⟨S507904x64, .f32⟩
  | .hbm, ⟨92, _⟩ => ⟨S_, .i32⟩
  | .hbm, ⟨93, _⟩ => ⟨S_, .f32⟩
  | .hbm, ⟨94, _⟩ => ⟨S507904x64, .f32⟩
  | .hbm, ⟨95, _⟩ => ⟨S1x507904, .f32⟩
  | .hbm, ⟨96, _⟩ => ⟨S507904, .f32⟩
  | .hbm, ⟨97, _⟩ => ⟨S500000, .f32⟩
  | .local _ .vmem, ⟨0, _⟩ => ⟨S16384x64, .f32⟩
  | .local _ .vmem, ⟨1, _⟩ => ⟨S16384x64, .f32⟩
  | .local _ .vmem, ⟨2, _⟩ => ⟨S16384x1, .f32⟩
  | .local _ .vmem, ⟨3, _⟩ => ⟨S16384x1, .f32⟩
  | .local _ .vmem, ⟨4, _⟩ => ⟨S16384x64, .f32⟩
  | .local _ .vmem, ⟨5, _⟩ => ⟨S16384x64, .f32⟩
  | .local _ .vmem, ⟨6, _⟩ => ⟨S16384x64, .f32⟩
  | .local _ .vmem, ⟨7, _⟩ => ⟨S16384x64, .f32⟩
  | .local _ .vmem, ⟨8, _⟩ => ⟨S16384x64, .f32⟩
  | .local _ .vmem, ⟨9, _⟩ => ⟨S16384x64, .f32⟩
  | .local _ .vmem, ⟨10, _⟩ => ⟨S1x16384, .f32⟩
  | .local _ .vmem, ⟨11, _⟩ => ⟨S1x16384, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_call1_v0 : Ref sig .tc := ⟨.hbm, 55, rfl⟩
abbrev main_v36 : Ref sig .tc := ⟨.hbm, 56, rfl⟩
abbrev main_c_10 : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_call3_v0 : Ref sig .tc := ⟨.hbm, 90, rfl⟩
abbrev main_v62 : Ref sig .tc := ⟨.hbm, 91, rfl⟩
abbrev main_c_17 : Ref sig .tc := ⟨.hbm, 92, rfl⟩
abbrev main_call4_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![77], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  pads_S1250000x64_S1261568x64_0115680_000 : S1250000x64.Pads (![0, 0] : Fin 2 → Nat) ![11568, 0] ![0, 0] S1261568x64
  h_S_ : 0 < S_.numel
  pads_S1250000_S1261568_0115680 : S1250000.Pads (![0] : Fin 1 → Nat) ![11568] ![0] S1261568
  shapeCasts_S1261568_S1261568x1 : S1261568.ShapeCasts S1261568x1
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  broadcasts_S16384x1_S16384x64 : S16384x1.Broadcasts S16384x64
  slices_S1261568x64_S1250000x64_0_0 : S1261568x64.Slices ![0, 0] S1250000x64
  bcast_S_S200000x64 : S_.BroadcastsInDim S200000x64 (![] : Fin 0 → Fin S200000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  pads_S500000x64_S507904x64_079040_000 : S500000x64.Pads (![0, 0] : Fin 2 → Nat) ![7904, 0] ![0, 0] S507904x64
  reduces_S16384x64_S16384 : S16384x64.Reduces [1] S16384
  shapeCasts_S16384_S16384x1 : S16384.ShapeCasts S16384x1
  transposes_S16384x1_p1_0_S1x16384 : S16384x1.Transposes [1, 0] S1x16384
  inb_S1x16384_S1x16384_0_0 : ∀ a, (![0, 0] : Fin 2 → Nat) a + S1x16384.size a ≤ S1x16384.size a
  h_S1x16384 : 0 < S1x16384.numel
  shapeCasts_S1x507904_S507904 : S1x507904.ShapeCasts S507904
  slices_S507904_S500000_0 : S507904.Slices ![0] S500000
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  gather_S200000x64_S500000x1_S500000x64_1_0_n_n_0_1_164_wf : GatherDims.WF S200000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1261568x64.size a
  hwx0_0 : ∀ i : grid0.Coords, EltTy.bits .f32 = 32 ∨ (Rect.block (s := S1261568x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S1261568x1.size a
  hwx0_1 : ∀ i : grid0.Coords, EltTy.bits .f32 = 32 ∨ (Rect.block (s := S1261568x1) S16384x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S1261568x64.size a
  hwx0_2 : ∀ i : grid0.Coords, EltTy.bits .f32 = 32 ∨ (Rect.block (s := S1261568x64) S16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S507904x64.size a
  hwx1_0 : ∀ i : grid1.Coords, EltTy.bits .f32 = 32 ∨ (Rect.block (s := S507904x64) S16384x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S507904x64.size a
  hwx1_1 : ∀ i : grid1.Coords, EltTy.bits .f32 = 32 ∨ (Rect.block (s := S507904x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x507904.size a
  hwx1_2 : ∀ i : grid1.Coords, EltTy.bits .f32 = 32 ∨ (Rect.block (s := S1x507904) S1x16384.size (cc1_transform_2 i) (hinb1_2 i)).WholeWords (EltTy.packing .f32)

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf

abbrev win0_0 : Pipeline.Window sig grid0 :=
  Pipeline.Window.ofSpec (Memref.whole main_v36) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x64 : Shape := ⟨2, ![200000, 64]⟩
abbrev S64x64 : Shape := ⟨2, ![64, 64]⟩
abbrev S64 : Shape := ⟨1, ![64]⟩
abbrev S2x500000 : Shape := ⟨2, ![2, 500000]⟩
abbrev S2x1250000 : Shape := ⟨2, ![2, 1250000]⟩
abbrev S1x64 : Shape := ⟨2, ![1, 64]⟩
abbrev S1x1250000 : Shape := ⟨2, ![1, 1250000]⟩
abbrev S1250000 : Shape := ⟨1, ![1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 91
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S64x64, .f32⟩
  | .hbm, ⟨2, _⟩ => ⟨S64, .f32⟩
  | .hbm, ⟨3, _⟩ => ⟨S2x500000, .i32⟩
  | .hbm, ⟨4, _⟩ => ⟨S2x1250000, .i32⟩
  | .hbm, ⟨5, _⟩ => ⟨S64x64, .f32⟩
  | .hbm, ⟨6, _⟩ => ⟨S200000x64, .f32⟩
  | .hbm, ⟨7, _⟩ => ⟨S1x64, .f32⟩
  | .hbm, ⟨8, _⟩ => ⟨S200000x64, .f32⟩
  | .hbm, ⟨9, _⟩ => ⟨S200000x64, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S200000, .f32⟩
  | .hbm, ⟨18, _⟩ => ⟨S1250000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S1250000, .i32⟩
  | .hbm, ⟨33, _⟩ => ⟨S1250000, .i1⟩
  | .hbm, ⟨34, _⟩ => ⟨S_, .i32⟩
  | .hbm, ⟨35, _⟩ => ⟨S1250000, .i32⟩
  | .hbm, ⟨36, _⟩ => ⟨S1250000, .i32⟩
  | .hbm, ⟨37, _⟩ => ⟨S1250000, .i32⟩
  | .hbm, ⟨38, _⟩ => ⟨S1250000x1, .i32⟩
  | .hbm, ⟨39, _⟩ => ⟨S1250000, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000, .f32⟩
  | .hbm, ⟨49, _⟩ => ⟨S1250000, .f32⟩
  | .hbm, ⟨50, _⟩ => ⟨S1250000x1, .f32⟩
  | .hbm, ⟨51, _⟩ => ⟨S_, .i32⟩
  | .hbm, ⟨52, _⟩ => ⟨S1250000, .i32⟩
  | .hbm, ⟨53, _⟩ => ⟨S1250000, .i1⟩
  | .hbm, ⟨54, _⟩ => ⟨S_, .i32⟩
  | .hbm, ⟨55, _⟩ => ⟨S1250000, .i32⟩
  | .hbm, ⟨56, _⟩ => ⟨S1250000, .i32⟩
  | .hbm, ⟨57, _⟩ => ⟨S1250000, .i32⟩
  | .hbm, ⟨58, _⟩ => ⟨S1250000x1, .i32⟩
  | .hbm, ⟨59, _⟩ => ⟨S1250000x64, .f32⟩
  | .hbm, ⟨60, _⟩ => ⟨S1250000x64, .f32⟩
  | .hbm, ⟨61, _⟩ => ⟨S1250000x64, .f32⟩
  | .hbm, ⟨62, _⟩ => ⟨S_, .f32⟩
  | .hbm, ⟨63, _⟩ => ⟨S200000x64, .f32⟩
  | .hbm, ⟨64, _⟩ => ⟨S1250000x1, .i32⟩
  | .hbm, ⟨65, _⟩ => ⟨S200000x64, .f32⟩
  | .hbm, ⟨66, _⟩ => ⟨S1x500000, .i32⟩
  | .hbm, ⟨67, _⟩ => ⟨S500000, .i32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x64, .f32⟩
  | .hbm, ⟨77, _⟩ => ⟨S1x500000, .i32⟩
  | .hbm, ⟨78, _⟩ => ⟨S500000, .i32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000x64, .f32⟩
  | .hbm, ⟨88, _⟩ => ⟨S500000x64, .f32⟩
  | .hbm, ⟨89, _⟩ => ⟨S_, .f32⟩
  | .hbm, ⟨90, _⟩ => ⟨S500000, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  dot_S200000x64_S64x64_S200000x64_1_0_0_1_n_n_wf : DotDims.WF S200000x64 S64x64 S200000x64 [1] [0] [0] [1] [] []
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  gather_S200000x64_S500000x1_S500000x64_1_0_n_n_0_1_164_wf : GatherDims.WF S200000x64 S500000x1 S500000x64 [1] [0] [] [0] [] 1 ![1, 64]

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf

class Facts : Prop extends Facts₀ where

variable [Facts]
-- ==== Proof.Spec.lean ====
/-
  What each of the two pallas_calls leaves in its output array, as ONE function of the arrays it reads.

  * The first call multiplies every row `e` of a [1261568, 64] array `g` by the single entry of row `e` of a
    [1261568, 1] column `n`: entry (e, d) of the result is `g (e, d) · n (e, 0)` (`rowScaled`).
  * The second call takes two [507904, 64] arrays `a`, `b` and writes, along the lanes of a single row, the dot
    product of row `e` of `a` with row `e` of `b`: entry (0, e) of the result is `∑ d, a (e, d) · b (e, d)`
    (`rowDots`; a lane sum is an exact finite sum over the extended reals).
-/
import proofs.«156202_j64244120814278_1_alg».proof.KernelIdeal
import Idealize.ShloMosaic.PureOps.Ideal

noncomputable section

namespace Cert.KernelIdeal.Spec

open Cert.KernelIdeal Idealize.ShloMosaic

variable {F : FTy → Type} [FloatOps F]

/-- The index, in a one-column array, of the entry on the row of `i`. -/
abbrev normAt (i : S1261568x64.Idx) : S1261568x1.Idx := fun a => match a with
  | ⟨0, _⟩ => ⟨(i 0).val, (i 0).isLt⟩
  | ⟨1, _⟩ => ⟨0, Nat.one_pos⟩

/-- Every row of `g` scaled by that row's entry of the column `n`. -/
def rowScaled (g : S1261568x64.Idx → Elt F .f32) (n : S1261568x1.Idx → Elt F .f32) : S1261568x64.Idx → Elt F .f32 :=
  fun i => FloatOps.mulf (g i) (n (normAt i))

/-- Entry `k` of the row whose number is the LANE of `i`. -/
abbrev featAt (i : S1x507904.Idx) (k : Fin 64) : S507904x64.Idx := fun a => match a with
  | ⟨0, _⟩ => ⟨(i 1).val, (i 1).isLt⟩
  | ⟨1, _⟩ => ⟨k.val, k.isLt⟩

/-- Row-by-row dot products of `a` and `b`, laid along the lanes of one row. -/
def rowDots (a b : S507904x64.Idx → EReal) : S1x507904.Idx → EReal :=
  fun i => ∑ k : Fin 64, a (featAt i k) * b (featAt i k)

end Cert.KernelIdeal.Spec

end
-- ==== Proof.ScaleArray.lean ====
/- The first pallas_call's output array after its 77 write-backs. The grid point t reads rows 16384·t … 16384·t + 16383 of
   the gathered array and of the one-column norm array (all three windows have block index (t, 0)), multiplies entry
   (r, d) of the first block by entry (r, 0) of the second, and writes the product back to the same rows of the output.
   So what point t writes back is block t of the ONE array "every row scaled by its row's norm entry", and since
   1261568 = 77 · 16384 the 77 blocks cover every row: row r lies in the block of the point r / 16384. -/
import proofs.«156202_j64244120814278_1_alg».proof.Proof.Spec
import proofs.«156202_j64244120814278_1_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- The two zero offsets of a whole-block access, as the constant function. -/
theorem scale_zero_offsets : (![0, 0] : Fin 2 → Nat) = fun _ => 0 :=
  funext fun a => match a with | ⟨0, _⟩ => rfl | ⟨1, _⟩ => rfl

/-- The entry of a [16384, 1] block on the row of `j`. -/
abbrev scaleBlockNormAt (j : S16384x64.Idx) : S16384x1.Idx := fun a => match a with
  | ⟨0, _⟩ => ⟨(j 0).val, (j 0).isLt⟩
  | ⟨1, _⟩ => ⟨0, Nat.one_pos⟩

/-- The body's product at an entry of the block: the first block's entry times the second block's entry on the same
    row (the two casts keep the shape; the column is copied along each row). -/
theorem scale_payload_apply {F : FTy → Type} [FloatOps F] (x0 : Vec F S16384x64 .f32) (x1 : Vec F S16384x1 .f32)
    (j : S16384x64.Idx) : k0_pay1 x0 x1 j = FloatOps.mulf (x0 j) (x1 (scaleBlockNormAt j)) := by
  unfold k0_pay1
  show FloatOps.mulf (shapeCast S16384x64 x0 shapeCasts_S16384x64_S16384x64 j)
      (broadcastTo S16384x64 (shapeCast S16384x1 x1 shapeCasts_S16384x1_S16384x1) broadcasts_S16384x1_S16384x64 j) = _
  rw [shapeCast_self, shapeCast_self,
    broadcastTo_apply x1 broadcasts_S16384x1_S16384x64 j (scaleBlockNormAt j) (fun a => match a with
      | ⟨0, _⟩ => by show (j 0).val = if (16384 : Nat) = 1 then 0 else (j 0).val; rw [if_neg (by decide)]
      | ⟨1, _⟩ => by show 0 = if (1 : Nat) = 1 then 0 else (j 1).val; rw [if_pos rfl])]

/-- At every grid point the three windows have the same block index, (t, 0) for some t ≤ 76 (decided over the 77 points). -/
theorem scale_same_block : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 76
    ∧ win0_2.index t (1 : Fin 2) = 0 :=
  (by decide +kernel : ∀ t : Fin grid0.N, _)

/-- Every block row 0 … 76 of the output is some grid point's. -/
theorem scale_block_of_row : ∀ q : Fin 77, ∃ t : Fin cfg0.N, win0_2.index t = ![q.val, 0] :=
  (by decide +kernel : ∀ q : Fin 77, ∃ t : Fin grid0.N, win0_2.index t = ![q.val, 0])

section
variable {F : FTy → Type} [FloatOps F]
variable (V : (c : Dev nD) → (b : Ref sig .tc) → Buf (Elt F) ((c : Thread nD τ).loc b))

/-- What grid point `t` writes back is block `t` of the row-scaled array. -/
theorem scale_flushed (c : Dev nD) (t : Fin cfg0.N) :
    (dat0 V c).flushed 2 t
      = ((cfg0.win 2).blk t).view.read (Elt F) (Spec.rowScaled (V c main_v36) (V c main_v38)) := by
  show (cfg0.win 2).cut (grid0.coords t) ((dat0 V c).after 2 t) = _
  rw [after0_2]
  unfold out0_2
  rw [View.canon_unit_zero scale_zero_offsets]
  simp only [View.ld_unit_zero (S := S16384x64) scale_zero_offsets, View.ld_unit_zero (S := S16384x1) scale_zero_offsets]
  obtain ⟨e00, e01, e10, e11, e2, e21⟩ := scale_same_block t
  funext j
  -- the body's product at entry j of the block
  refine (scale_payload_apply (iblk0 V c 0 t) (iblk0 V c 1 t) ((cfg0.win 2).xinj (grid0.coords t) j)).trans ?_
  -- each block's entry is its array's entry under the block; so is the row-scaled array's
  show FloatOps.mulf (V c main_v36 (((cfg0.win 0).blk t).view.emb j))
        (V c main_v38 (((cfg0.win 1).blk t).view.emb (scaleBlockNormAt j)))
      = FloatOps.mulf (V c main_v36 (((cfg0.win 2).blk t).view.emb j))
        (V c main_v38 (Spec.normAt (((cfg0.win 2).blk t).view.emb j)))
  -- a block's coordinate on an axis is block index × block size + 1 × the coordinate inside the block
  have h0 : ((cfg0.win 0).blk t).view.emb j = ((cfg0.win 2).blk t).view.emb j := by
    funext a; apply Fin.ext
    match a with
    | ⟨0, _⟩ =>
      show win0_0.index t (0 : Fin 2) * 16384 + 1 * (j 0).val = win0_2.index t (0 : Fin 2) * 16384 + 1 * (j 0).val
      omega
    | ⟨1, _⟩ =>
      show win0_0.index t (1 : Fin 2) * 64 + 1 * (j 1).val = win0_2.index t (1 : Fin 2) * 64 + 1 * (j 1).val
      omega
  have h1 : ((cfg0.win 1).blk t).view.emb (scaleBlockNormAt j) = Spec.normAt (((cfg0.win 2).blk t).view.emb j) := by
    funext a; apply Fin.ext
    match a with
    | ⟨0, _⟩ =>
      show win0_1.index t (0 : Fin 2) * 16384 + 1 * (j 0).val = win0_2.index t (0 : Fin 2) * 16384 + 1 * (j 0).val
      omega
    | ⟨1, _⟩ =>
      show win0_1.index t (1 : Fin 2) * 1 + 1 * 0 = 0
      omega
  rw [h0, h1]

end

/-- An entry of the output array is in point `t`'s block iff on each axis its coordinate is in the block's range. -/
theorem mem_scale_block (t : Fin cfg0.N) (i : S1261568x64.Idx) :
    i ∈ ((cfg0.win 2).blk t).view.set
      ↔ ∀ a : Fin 2, win0_2.index t a * S16384x64.size a ≤ (i a).val
          ∧ (i a).val < win0_2.index t a * S16384x64.size a + S16384x64.size a := by
  show i ∈ ((View.whole main_v39).slice (win0_2.rect t)).set ↔ _
  rw [View.set_slice_whole, Rect.mem_set_unit]
  exact Iff.rfl

/-- Every entry of the output array lies in the block some grid point writes back: row r in that of block row r / 16384. -/
theorem scale_cover (i : S1261568x64.Idx) :
    ∃ t : Fin cfg0.N, (cfg0.win 2).flush t = true ∧ i ∈ ((cfg0.win 2).blk t).view.set := by
  have hi0 : (i 0).val < 1261568 := (i 0).isLt
  have hi1 : (i 1).val < 64 := (i 1).isLt
  obtain ⟨t, ht⟩ := scale_block_of_row ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_scale_block]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 64 ≤ (i 1).val ∧ (i 1).val < win0_2.index t (1 : Fin 2) * 64 + 64
    omega

theorem scale_array {F : FTy → Type} [FloatOps F] (V : (c : Dev nD) → (b : Ref sig .tc) → Buf (Elt F) ((c : Thread nD τ).loc b)) (c : Dev nD) :
    (dat0 V c).arrAt 2 cfg0.N = Spec.rowScaled (V c main_v36) (V c main_v38) :=
  (dat0 V c).arrAt_eq_of_cover 2 _ (fun t _ => scale_flushed V c t) scale_cover

end Cert.KernelIdeal.Hand

end
-- ==== Proof.ScoreArray.lean ====
/-
  The second pallas_call's output array after its 31 write-backs. Its output is one row of 507904 lanes, written in
  31 blocks of 16384 lanes; at point `t` the body loads rows [16384 t, 16384 (t + 1)) of its two [507904, 64] input
  arrays, multiplies them entry by entry, sums each row over its 64 lanes, and stores the 16384 sums, transposed, as
  lane block `t` of the row. So lane `l` of the output ends holding `∑ d, a (l, d) · b (l, d)`: what each point
  writes back is its block of that one function of the input arrays, and the 31 blocks cover the row.
-/
import proofs.«156202_j64244120814278_1_alg».proof.Proof.Spec
import proofs.«156202_j64244120814278_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx (ix1 ix2)

/-- The body's store starts at the origin of its buffer. -/
theorem origin_offsets : (![0, 0] : Fin 2 → Nat) = fun _ => 0 :=
  funext fun a => match a with | ⟨0, _⟩ => rfl | ⟨1, _⟩ => rfl

/-- Lane `l` of the row the body stores is the dot product of row `l` of its two loaded blocks: the transpose reads
    the column at (l, 0), the cast reads the vector of row sums at l, the row sum is the sum over the 64 lanes, and the
    product is taken entry by entry of the two blocks (each cast to its own shape, which changes nothing). -/
theorem score_payload_apply (x0 x1 : Vec Ideal S16384x64 .f32) (j : S1x16384.Idx) :
    k1_pay1 x0 x1 j
      = ∑ k : Fin 64, x0 (ix2 (⟨(j 1).val, (j 1).isLt⟩ : Fin 16384) k) * x1 (ix2 (⟨(j 1).val, (j 1).isLt⟩ : Fin 16384) k) := by
  have h0 : (j 0).val < 1 := (j 0).isLt
  have h1 : (j 1).val < 16384 := (j 1).isLt
  unfold k1_pay1
  refine (transpose_apply [1, 0] _ transposes_S16384x1_p1_0_S1x16384 j
    (ix2 (⟨(j 1).val, h1⟩ : Fin 16384) (⟨0, Nat.one_pos⟩ : Fin 1))
    (fun b => match b with
      | ⟨0, _⟩ => by show 0 = (j 0).val; omega
      | ⟨1, _⟩ => rfl)).trans ?_
  refine (shapeCast_apply _ shapeCasts_S16384_S16384x1 (ix2 (⟨(j 1).val, h1⟩ : Fin 16384) (⟨0, Nat.one_pos⟩ : Fin 1))
    (ix1 (⟨(j 1).val, h1⟩ : Fin 16384))
    (by rw [Shape.rowMajor_val_two, Shape.rowMajor_val_one]; show (j 1).val = (j 1).val * 1 + 0; omega)).trans ?_
  refine (Ideal.multiReduction_add_single (s := S16384x64) (t := S16384) (a := 1) _ 0x00000000#32 reduces_S16384x64_S16384 (.inl rfl) rfl
    (ix1 (⟨(j 1).val, h1⟩ : Fin 16384))).trans ?_
  rw [shapeCast_self, shapeCast_self]
  refine Finset.sum_congr rfl fun k _ => ?_
  show x0 _ * x1 _ = _
  have hk : Shape.Reduces.lift (s := S16384x64) (t := S16384) (a := 1) reduces_S16384x64_S16384 (ix1 (⟨(j 1).val, h1⟩ : Fin 16384)) k
      = ix2 (⟨(j 1).val, h1⟩ : Fin 16384) (k : Fin 64) :=
    funext fun a => Fin.ext (by match a with | ⟨0, _⟩ => rfl | ⟨1, _⟩ => rfl)
  rw [hk]
  rfl

/-- The three windows' block indices, decided over the 31 points: both input windows sit at the row block whose
    number is the output window's lane block, at column block 0; the output window sits at row block 0, and its lane
    block is one of the 31. -/
theorem block_index_facts : ∀ t : Fin cfg1.N, win1_0.index t (0 : Fin 2) = win1_2.index t (1 : Fin 2)
    ∧ win1_0.index t (1 : Fin 2) = 0
    ∧ win1_1.index t (0 : Fin 2) = win1_2.index t (1 : Fin 2)
    ∧ win1_1.index t (1 : Fin 2) = 0
    ∧ win1_2.index t (0 : Fin 2) = 0
    ∧ win1_2.index t (1 : Fin 2) ≤ 30 :=
  (by decide +kernel : ∀ t : Fin grid1.N, _)

/-- Every one of the 31 lane blocks of the output row is SOME point's. -/
theorem lane_block_onto : ∀ q : Fin 31, ∃ t : Fin cfg1.N, win1_2.index t = ![0, q.val] :=
  (by decide +kernel : ∀ q : Fin 31, ∃ t : Fin grid1.N, win1_2.index t = ![0, q.val])

/-- WHAT POINT `t` WRITES BACK is block `t` of the row of dot products of the two arrays as the region finds them. -/
theorem score_flushed (V : (c : Dev nD) → (b : Ref sig .tc) → Buf (Elt Ideal) ((c : Thread nD τ).loc b)) (c : Dev nD) (t : Fin cfg1.N) :
    (dat1 V c).flushed 2 t = ((cfg1.win 2).blk t).view.read (Elt Ideal) (Spec.rowDots (V c main_v62) (V c main_v63)) := by
  show (cfg1.win 2).cut (grid1.coords t) ((dat1 V c).after 2 t) = _
  rw [after1_2]
  unfold out1_2
  rw [View.canon_unit_zero origin_offsets]
  simp only [View.ld_unit_zero (S := S16384x64) origin_offsets]
  obtain ⟨e0, e1, e2, e3, e4, e5⟩ := block_index_facts t
  funext j
  show k1_pay1 (iblk1 V c 0 t) (iblk1 V c 1 t) j
    = Spec.rowDots (V c main_v62) (V c main_v63) (((cfg1.win 2).blk t).view.emb j)
  refine (score_payload_apply _ _ j).trans ?_
  unfold Spec.rowDots
  refine Finset.sum_congr rfl fun k _ => ?_
  have hl : (j 1).val < 16384 := (j 1).isLt
  have hk : k.val < 64 := k.isLt
  -- row l of either input block is row (lane block) * 16384 + l of its array
  have r0 : iblk1 V c 0 t (ix2 (⟨(j 1).val, hl⟩ : Fin 16384) k)
      = V c main_v62 (Spec.featAt (((cfg1.win 2).blk t).view.emb j) k) := by
    show V c main_v62 (((cfg1.win 0).blk t).view.emb (ix2 (⟨(j 1).val, hl⟩ : Fin 16384) k)) = _
    refine congrArg (V c main_v62) (funext fun a => Fin.ext ?_)
    match a with
    | ⟨0, _⟩ => show win1_0.index t (0 : Fin 2) * 16384 + 1 * (j 1).val = win1_2.index t (1 : Fin 2) * 16384 + 1 * (j 1).val; omega
    | ⟨1, _⟩ => show win1_0.index t (1 : Fin 2) * 64 + 1 * k.val = k.val; omega
  have r1 : iblk1 V c 1 t (ix2 (⟨(j 1).val, hl⟩ : Fin 16384) k)
      = V c main_v63 (Spec.featAt (((cfg1.win 2).blk t).view.emb j) k) := by
    show V c main_v63 (((cfg1.win 1).blk t).view.emb (ix2 (⟨(j 1).val, hl⟩ : Fin 16384) k)) = _
    refine congrArg (V c main_v63) (funext fun a => Fin.ext ?_)
    match a with
    | ⟨0, _⟩ => show win1_1.index t (0 : Fin 2) * 16384 + 1 * (j 1).val = win1_2.index t (1 : Fin 2) * 16384 + 1 * (j 1).val; omega
    | ⟨1, _⟩ => show win1_1.index t (1 : Fin 2) * 64 + 1 * k.val = k.val; omega
  exact congrArg₂ (· * ·) r0 r1

/-- An index of the output row is in point `t`'s block iff each coordinate is in the block's range on its axis. -/
theorem mem_score_block (t : Fin cfg1.N) (i : S1x507904.Idx) :
    i ∈ ((cfg1.win 2).blk t).view.set ↔ ∀ a : Fin 2, win1_2.index t a * S1x16384.size a ≤ (i a).val ∧ (i a).val < win1_2.index t a * S1x16384.size a + S1x16384.size a := by
  show i ∈ ((View.whole main_v64).slice (win1_2.rect t)).set ↔ _
  rw [View.set_slice_whole, Rect.mem_set_unit]
  exact Iff.rfl

/-- Every lane of the output row is in some point's block: lane `l` in that of the point whose lane block is `l / 16384`. -/
theorem score_cover (i : S1x507904.Idx) :
    ∃ t : Fin cfg1.N, (cfg1.win 2).flush t = true ∧ i ∈ ((cfg1.win 2).blk t).view.set := by
  have hi0 : (i 0).val < 1 := (i 0).isLt
  have hi1 : (i 1).val < 507904 := (i 1).isLt
  obtain ⟨t, ht⟩ := lane_block_onto ⟨(i 1).val / 16384, by omega⟩
  have q0 : win1_2.index t (0 : Fin 2) = 0 := congrFun ht 0
  have q1 : win1_2.index t (1 : Fin 2) = (i 1).val / 16384 := congrFun ht 1
  refine ⟨t, flush1_2 t, ?_⟩
  rw [mem_score_block]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 16384 ≤ (i 1).val ∧ (i 1).val < win1_2.index t (1 : Fin 2) * 16384 + 16384; omega

theorem score_array (V : (c : Dev nD) → (b : Ref sig .tc) → Buf (Elt Ideal) ((c : Thread nD τ).loc b)) (c : Dev nD) :
    (dat1 V c).arrAt 2 cfg1.N = Spec.rowDots (V c main_v62) (V c main_v63) :=
  (dat1 V c).arrAt_eq_of_cover 2 _ (fun t _ => score_flushed V c t) score_cover

end Cert.KernelIdeal.Hand

end
-- ==== Proof.ScaleLaw.lean ====
/- Appending 11568 rows to a [1250000, 64] array `X` and to a [1250000] column `nrm`, scaling every row of the longer
   array by that row's entry of the longer column, and keeping the first 1250000 rows reads, at (e, d),
   `X (e, d) * nrm e`: row e < 1250000 lies before the appended rows, so no appended entry is read, and the column
   viewed as [1261568, 1] has entry (e, 0) at row-major position e. The reference's product of the column, copied along
   each row, with `X` reads `nrm e * X (e, d)` there. Over the extended reals the product commutes. -/
import proofs.«156202_j64244120814278_1_alg».proof.Proof.Spec
import Idealize.ShloMosaic.Lib.Pipeline.Value
import Idealize.ShloMosaic.Lib.KernelVsHost
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal

/-- Entry (e, d) of the [1250000, 64] array, as an index of the array with the rows appended. -/
abbrev scaleInLonger (i : S1250000x64.Idx) : S1261568x64.Idx := fun a => match a with
  | ⟨0, _⟩ => ⟨(i 0).val, Nat.lt_of_lt_of_le (i 0).isLt (by decide : (1250000 : Nat) ≤ 1261568)⟩
  | ⟨1, _⟩ => ⟨(i 1).val, (i 1).isLt⟩

/-- The row of `i`, as an index of the column with the entries appended. -/
abbrev scaleRowInLonger (i : S1250000x64.Idx) : S1261568.Idx := fun a => match a with
  | ⟨0, _⟩ => ⟨(i 0).val, Nat.lt_of_lt_of_le (i 0).isLt (by decide : (1250000 : Nat) ≤ 1261568)⟩

/-- The row of `i`, as an index of the column. -/
abbrev scaleRowOf (i : S1250000x64.Idx) : S1250000.Idx := fun a => match a with
  | ⟨0, _⟩ => ⟨(i 0).val, (i 0).isLt⟩

/-- The row of `i`, as an index of the column seen as a one-column array. -/
abbrev scaleRowOfColumn (i : S1250000x64.Idx) : S1250000x1.Idx := fun a => match a with
  | ⟨0, _⟩ => ⟨(i 0).val, (i 0).isLt⟩
  | ⟨1, _⟩ => ⟨0, Nat.one_pos⟩

theorem scale_law (X : S1250000x64.Idx → EReal) (nrm : S1250000.Idx → EReal) (z z' : S_.Idx → EReal)
    (hp : S1250000x64.Pads (![0, 0] : Fin 2 → Nat) ![11568, 0] ![0, 0] S1261568x64)
    (hp' : S1250000.Pads (![0] : Fin 1 → Nat) ![11568] ![0] S1261568)
    (hu : 0 < S_.numel) (hc : S1261568.ShapeCasts S1261568x1) (hs : S1261568x64.Slices ![0, 0] S1250000x64)
    (hb1 : S1250000.BroadcastsInDim S1250000x1 (![0] : Fin 1 → Fin S1250000x1.rank))
    (hb2 : S1250000x1.BroadcastsInDim S1250000x64 (![0, 1] : Fin 2 → Fin S1250000x64.rank)) :
    extractStridedSlice S1250000x64 ![0, 0]
        (Spec.rowScaled (F := Ideal) (pad S1261568x64 ![0, 0] ![11568, 0] ![0, 0] X z hp hu)
          (shapeCast S1261568x1 (pad S1261568 ![0] ![11568] ![0] nrm z' hp' hu) hc)) hs
      = mulf (F := Ideal) (φ := .f32) (broadcastInDim S1250000x64 ![0, 1] hb2 (broadcastInDim S1250000x1 ![0] hb1 nrm)) X := by
  funext i
  -- the kept rows start at row 0: entry (e, d) of the cut is entry (e, d) of the longer array
  refine (extractStridedSlice_apply _ _ hs i (scaleInLonger i) (fun a => match a with
    | ⟨0, _⟩ => by show (i 0).val = 0 + (i 0).val; omega
    | ⟨1, _⟩ => by show (i 1).val = 0 + (i 1).val; omega)).trans ?_
  -- row e < 1250000 of the longer array is row e of `X`
  have hX : pad S1261568x64 ![0, 0] ![11568, 0] ![0, 0] X z hp hu (scaleInLonger i) = X i :=
    pad_apply_of_inside _ _ _ X z hp hu (scaleInLonger i) i (fun a => match a with
      | ⟨0, _⟩ => by show (i 0).val = 0 + (i 0).val * (0 + 1); omega
      | ⟨1, _⟩ => by show (i 1).val = 0 + (i 1).val * (0 + 1); omega)
  -- entry (e, 0) of the longer column seen as [1261568, 1] is its entry e, which is `nrm e`
  have hn : shapeCast S1261568x1 (pad S1261568 ![0] ![11568] ![0] nrm z' hp' hu) hc (Spec.normAt (scaleInLonger i))
      = nrm (scaleRowOf i) := by
    refine (shapeCast_apply _ hc (Spec.normAt (scaleInLonger i)) (scaleRowInLonger i) ?_).trans ?_
    · rw [Shape.rowMajor_val_one, Shape.rowMajor_val_two]
      show (i 0).val = (i 0).val * 1 + 0
      omega
    · exact pad_apply_of_inside _ _ _ nrm z' hp' hu (scaleRowInLonger i) (scaleRowOf i) (fun a => match a with
        | ⟨0, _⟩ => by show (i 0).val = 0 + (i 0).val * (0 + 1); omega)
  -- the column copied along each row reads `nrm e` at (e, d)
  have hb : broadcastInDim S1250000x64 ![0, 1] hb2 (broadcastInDim S1250000x1 ![0] hb1 nrm) i = nrm (scaleRowOf i) := by
    refine (broadcastInDim_apply _ hb2 _ i (scaleRowOfColumn i) (fun a => match a with
      | ⟨0, _⟩ => by show (i 0).val = if (1250000 : Nat) = 1 then 0 else (i 0).val; rw [if_neg (by decide)]
      | ⟨1, _⟩ => by show 0 = if (1 : Nat) = 1 then 0 else (i 1).val; rw [if_pos rfl])).trans ?_
    exact broadcastInDim_apply _ hb1 nrm (scaleRowOfColumn i) (scaleRowOf i) (fun a => match a with
      | ⟨0, _⟩ => by show (i 0).val = if (1250000 : Nat) = 1 then 0 else (i 0).val; rw [if_neg (by decide)])
  show FloatOps.mulf (F := Ideal) (φ := .f32) (pad S1261568x64 ![0, 0] ![11568, 0] ![0, 0] X z hp hu (scaleInLonger i))
      (shapeCast S1261568x1 (pad S1261568 ![0] ![11568] ![0] nrm z' hp' hu) hc (Spec.normAt (scaleInLonger i)))
    = FloatOps.mulf (F := Ideal) (φ := .f32) (broadcastInDim S1250000x64 ![0, 1] hb2 (broadcastInDim S1250000x1 ![0] hb1 nrm) i) (X i)
  rw [hX, hn, hb, Ideal.mulf_def, Ideal.mulf_def]
  exact mul_comm _ _

end Cert.KernelIdeal.Hand

end
-- ==== Proof.ScoreLaw.lean ====
/-
  Padding two [500000, 64] arrays with 7904 rows below, taking the dot product of row `l` of the one with row `l` of
  the other along the lanes of one row, flattening that row and keeping its first 500000 lanes is the sum over the
  feature axis of the elementwise product of the two unpadded arrays: lane `l < 500000` reads rows the padding does
  not touch, and a sum that starts from the zero constant is the bare sum.
-/
import proofs.«156202_j64244120814278_1_alg».proof.Proof.Spec
import Idealize.ShloMosaic.Lib.Pipeline.Value
import Idealize.ShloMosaic.Lib.KernelVsHost
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal
open Idealize.ShloMosaic.ValueIdx (ix1 ix2)

theorem score_law (A B : S500000x64.Idx → EReal) (z z' : S_.Idx → EReal)
    (hp : S500000x64.Pads (![0, 0] : Fin 2 → Nat) ![7904, 0] ![0, 0] S507904x64) (hu : 0 < S_.numel)
    (hc : S1x507904.ShapeCasts S507904) (hs : S507904.Slices ![0] S500000)
    (hr : S500000x64.ReducesTo [1] S500000) :
    extractStridedSlice S500000 ![0]
        (shapeCast S507904 (Spec.rowDots (pad S507904x64 ![0, 0] ![7904, 0] ![0, 0] A z hp hu)
          (pad S507904x64 ![0, 0] ![7904, 0] ![0, 0] B z' hp hu)) hc) hs
      = Host.reduceAdd (F := Ideal) (φ := .f32) (mulf (F := Ideal) (φ := .f32) A B) (constant (F := Ideal) S_ .f32 0x00000000#32) hr hu := by
  funext j
  have hj : (j 0).val < 500000 := (j 0).isLt
  have hlane : (j 0).val < 507904 := by omega
  refine (extractStridedSlice_apply (![0]) _ hs j (ix1 (⟨(j 0).val, hlane⟩ : Fin 507904))
    (fun a => match a with | ⟨0, _⟩ => by show (j 0).val = 0 + (j 0).val; omega)).trans ?_
  refine (shapeCast_apply _ hc (ix1 (⟨(j 0).val, hlane⟩ : Fin 507904)) (ix2 (⟨0, Nat.one_pos⟩ : Fin 1) (⟨(j 0).val, hlane⟩ : Fin 507904))
    (by rw [Shape.rowMajor_val_two, Shape.rowMajor_val_one]; show 0 * 507904 + (j 0).val = (j 0).val; omega)).trans ?_
  unfold Spec.rowDots
  simp only [Host.reduceAdd, Ideal.hostReduceAdd_def]
  rw [Ideal.hostReduceAdd_single hr (by decide)]
  rw [show constant (F := Ideal) S_ .f32 0x00000000#32 (Shape.Idx.first hu) = 0 from Ideal.ofBits_zero_f32, zero_add]
  refine Finset.sum_congr rfl fun k _ => ?_
  show _ = A _ * B _
  have hk : ∀ a : Fin 2, ((Spec.featAt (ix2 (⟨0, Nat.one_pos⟩ : Fin 1) (⟨(j 0).val, hlane⟩ : Fin 507904)) k) (a.cast hp.1)).val
      = (![0, 0] : Fin 2 → Nat) a + ((Shape.Reduces.lift (s := S500000x64) (t := S500000) (a := 1) (by decide) j k) a).val * ((![0, 0] : Fin 2 → Nat) a + 1) := fun a =>
    match a with
    | ⟨0, _⟩ => by show (j 0).val = 0 + (j 0).val * (0 + 1); omega
    | ⟨1, _⟩ => by show k.val = 0 + k.val * (0 + 1); omega
  rw [pad_apply_of_inside _ _ _ A z hp hu _ _ hk, pad_apply_of_inside _ _ _ B z' hp hu _ _ hk]

end Cert.KernelIdeal.Hand

end
-- ==== Proof.KernelValue.lean ====
/-
  What the idealized kernel's result buffer holds after the run, as the reference's own stages of the arguments.

  The fold through @main is read stretch by stretch. Before the first pallas_call the host has computed, with the very
  operations the reference uses, the column indices, the gathered rows `x[row]` and the edge norms; it pads both with
  rows of the padding value. The first call scales every padded row by its norm entry; cutting the padding off again
  gives the reference's message array `norm · x[row]` (the two products differ by commutativity only). The scatter-add
  over the column indices and the two gathers over the scoring edges are again the reference's operations, applied to
  equal arrays. The second call takes the row-by-row dot products of the two padded gathers along one row's lanes;
  flattening and cutting the padding off gives the reference's sum over the feature axis.
-/
import proofs.«156202_j64244120814278_1_alg».proof.Proof.Spec
import proofs.«156202_j64244120814278_1_alg».proof.Proof.ScaleArray
import proofs.«156202_j64244120814278_1_alg».proof.Proof.ScoreArray
import proofs.«156202_j64244120814278_1_alg».proof.Proof.ScaleLaw
import proofs.«156202_j64244120814278_1_alg».proof.Proof.ScoreLaw
import proofs.«156202_j64244120814278_1_alg».proof.Proof.KernelResult
import proofs.«156202_j64244120814278_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-! ## Before the first pallas_call: the host's operations are the reference's (at any float family) -/

section AnyFamily

variable {F : FTy → Type} [FloatOps F]
variable (m : (ℓ : Loc nD τ sig) → Buf (Elt F) ℓ) (ρ : Dev nD → PrngReg) (c : Dev nD)

/-- The node features, the scoring edges and the message-passing edges as launched. -/
abbrev feats : (⟨S200000x64, .f32⟩ : BufTy).Contents (Elt F) := m ((c : Thread nD τ).loc main_arg0)
abbrev scoreEdges : (⟨S2x500000, .i32⟩ : BufTy).Contents (Elt F) := m ((c : Thread nD τ).loc main_arg3)
abbrev msgEdges : (⟨S2x1250000, .i32⟩ : BufTy).Contents (Elt F) := m ((c : Thread nD τ).loc main_arg4)

/-- When the first pallas_call is entered the column-index vector is the reference's. -/
theorem entry0_col : W7 m ρ c (Proc.devRef .tc main_v3) = Cert.ReferenceIdeal.ReadP.val_main_v8 (F := F) (msgEdges m c) := by
  dsimp only [W7, W6, W5, W4, W3, W2, W1, hostOps0_6, hostOps0_5, hostOps0_4, hostOps0_3, hostOps0_2, hostOps0_1, hostOps0]
  after_results_simp
  rfl

/-- The scoring edges are untouched. -/
theorem entry0_scoreEdges : W7 m ρ c (Proc.devRef .tc main_arg3) = scoreEdges m c := by
  dsimp only [W7, W6, W5, W4, W3, W2, W1, hostOps0_6, hostOps0_5, hostOps0_4, hostOps0_3, hostOps0_2, hostOps0_1, hostOps0]
  after_results_simp

/-- The first call's row operand: the reference's gathered rows `x[row]`, padded with rows of the padding value. -/
theorem entry0_gathered : W7 m ρ c (Proc.devRef .tc main_v36)
    = pad S1261568x64 ![0, 0] ![11568, 0] ![0, 0] (Cert.ReferenceIdeal.ReadP.val_main_v41 (F := F) (feats m c) (msgEdges m c))
        (sitofp (F := F) .f32 (constantI S_ 32 0#32)) pads_S1250000x64_S1261568x64_0115680_000 h_S_ := by
  dsimp only [W7, W6, W5, W4, W3, W2, W1, hostOps0_6, hostOps0_5, hostOps0_4, hostOps0_3, hostOps0_2, hostOps0_1, hostOps0]
  after_results_simp
  rfl

/-- The first call's norm operand: the reference's edge norms, padded with the padding value and laid out as one column. -/
theorem entry0_norm : W7 m ρ c (Proc.devRef .tc main_v38)
    = shapeCast S1261568x1 (pad S1261568 ![0] ![11568] ![0] (Cert.ReferenceIdeal.ReadP.val_main_v33 (F := F) (msgEdges m c))
        (sitofp (F := F) .f32 (constantI S_ 32 0#32)) pads_S1250000_S1261568_0115680 h_S_) shapeCasts_S1261568_S1261568x1 := by
  dsimp only [W7, W6, W5, W4, W3, W2, W1, hostOps0_6, hostOps0_5, hostOps0_4, hostOps0_3, hostOps0_2, hostOps0_1, hostOps0]
  after_results_simp
  rfl

/-- After the first call its output array holds every padded gathered row scaled by its padded norm entry. -/
theorem exit0_out : W8 m ρ c (Proc.devRef .tc main_v39)
    = Spec.rowScaled (W7 m ρ c (Proc.devRef .tc main_v36)) (W7 m ρ c (Proc.devRef .tc main_v38)) :=
  (W8_arr m ρ c 2).trans (scale_array (V7 m ρ) c)

/-! ## Between the calls: the scatter-add and the two gathers are the reference's, once the message arrays agree -/

/-- The second call's first operand: the aggregated features gathered at the scoring edges' sources, padded. -/
theorem entry1_left_of
    (hmsg : extractStridedSlice S1250000x64 ![0, 0] (W8 m ρ c (Proc.devRef .tc main_v39)) slices_S1261568x64_S1250000x64_0_0
      = Cert.ReferenceIdeal.ReadP.val_main_v43 (F := F) (feats m c) (msgEdges m c)) :
    W12 m ρ c (Proc.devRef .tc main_v62)
    = pad S507904x64 ![0, 0] ![7904, 0] ![0, 0]
        (Cert.ReferenceIdeal.ReadP.val_main_v55 (F := F) (feats m c) (scoreEdges m c) (msgEdges m c))
        (sitofp (F := F) .f32 (constantI S_ 32 0#32)) pads_S500000x64_S507904x64_079040_000 h_S_ := by
  dsimp only [W12, W11, W10, W9, hostOps1_3, hostOps1_2, hostOps1_1, hostOps1]
  after_results_simp
  rw [W8_of_ne m ρ c main_v3 (by decide), W8_of_ne m ρ c main_arg3 (by decide), entry0_col, entry0_scoreEdges, hmsg]
  rfl

/-- The second call's second operand: the same at the scoring edges' targets. -/
theorem entry1_right_of
    (hmsg : extractStridedSlice S1250000x64 ![0, 0] (W8 m ρ c (Proc.devRef .tc main_v39)) slices_S1261568x64_S1250000x64_0_0
      = Cert.ReferenceIdeal.ReadP.val_main_v43 (F := F) (feats m c) (msgEdges m c)) :
    W12 m ρ c (Proc.devRef .tc main_v63)
    = pad S507904x64 ![0, 0] ![7904, 0] ![0, 0]
        (Cert.ReferenceIdeal.ReadP.val_main_v64 (F := F) (feats m c) (scoreEdges m c) (msgEdges m c))
        (sitofp (F := F) .f32 (constantI S_ 32 0#32)) pads_S500000x64_S507904x64_079040_000 h_S_ := by
  dsimp only [W12, W11, W10, W9, hostOps1_3, hostOps1_2, hostOps1_1, hostOps1]
  after_results_simp
  rw [W8_of_ne m ρ c main_v3 (by decide), W8_of_ne m ρ c main_arg3 (by decide), entry0_col, entry0_scoreEdges, hmsg]
  rfl

/-- The last host stretch flattens the second call's one-row output and keeps its first 500000 lanes. -/
theorem result_fold : W14 m ρ c (Proc.devRef .tc main_v66)
    = extractStridedSlice S500000 ![0] (shapeCast S507904 (W13 m ρ c (Proc.devRef .tc main_v64)) shapeCasts_S1x507904_S507904)
        slices_S507904_S500000_0 := by
  dsimp only [W14, hostOps2]
  after_results_simp
  rfl

/-- The reference's last stage, one level opened: the host sum of the product of its two gathers. -/
theorem ref_last_stage (x0 : (⟨S200000x64, .f32⟩ : BufTy).Contents (Elt F)) (x3 : (⟨S2x500000, .i32⟩ : BufTy).Contents (Elt F))
    (x4 : (⟨S2x1250000, .i32⟩ : BufTy).Contents (Elt F)) (hr : S500000x64.ReducesTo [1] S500000) :
    Cert.ReferenceIdeal.ReadP.val_main_v66 (F := F) x0 x3 x4
      = Host.reduceAdd (mulf (Cert.ReferenceIdeal.ReadP.val_main_v55 (F := F) x0 x3 x4) (Cert.ReferenceIdeal.ReadP.val_main_v64 (F := F) x0 x3 x4))
          (constant S_ .f32 0x00000000#32) hr h_S_ := rfl

end AnyFamily

/-! ## At the ideal instance -/

variable (m : (ℓ : Loc nD τ sig) → Buf (Elt Ideal) ℓ) (ρ : Dev nD → PrngReg) (c : Dev nD)

/-- Cutting the padding rows off the first call's output gives the reference's message array `norm · x[row]`. -/
theorem messages : extractStridedSlice S1250000x64 ![0, 0] (W8 m ρ c (Proc.devRef .tc main_v39)) slices_S1261568x64_S1250000x64_0_0
    = Cert.ReferenceIdeal.ReadP.val_main_v43 (F := Ideal) (feats m c) (msgEdges m c) := by
  rw [exit0_out, entry0_gathered, entry0_norm,
    scale_law _ _ _ _ _ _ _ _ _ bcast_S1250000_S1250000x1_0 (by decide)]
  rfl

/-- After the second call its output array holds the row-by-row dot products of its two operands. -/
theorem exit1_out : W13 m ρ c (Proc.devRef .tc main_v64)
    = Spec.rowDots (W12 m ρ c (Proc.devRef .tc main_v62)) (W12 m ρ c (Proc.devRef .tc main_v63)) :=
  (W13_arr m ρ c 2).trans (score_array (V12 m ρ) c)

/-- The result buffer after the run is the reference's last stage of the arguments. -/
theorem result_eq : W14 m ρ c (Proc.devRef .tc main_v66)
    = Cert.ReferenceIdeal.ReadP.val_main_v66 (F := Ideal) (feats m c) (scoreEdges m c) (msgEdges m c) := by
  rw [result_fold, exit1_out, entry1_left_of m ρ c (messages m ρ c), entry1_right_of m ρ c (messages m ρ c),
    ref_last_stage _ _ _ (by decide)]
  exact score_law _ _ _ _ _ _ _ _ _

/-- The idealized kernel's run: the result at the reference's last stage of the arguments, the arguments unchanged. -/
theorem run : θ_run defs (onTc (τ := τ) (main (F := Ideal))) ⟨m, fun _ => 0, ρ⟩ fun r => ∀ c : Dev nD,
      r.2.mem ((c.tc : Thread nD τ).loc main_v66)
        = Cert.ReferenceIdeal.ReadP.val_main_v66 (F := Ideal) (feats m c) (scoreEdges m c) (msgEdges m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq m ρ c), (h c).2⟩)
    (Cert.KernelIdeal.Result.run_result (F := Ideal) m ρ)

end Cert.KernelIdeal.Hand

end
-- ==== Proof.lean ====
/-
  The certificate of the two-call graph kernel against its jnp reference, over the extended reals.

  Both programs compute, for every scoring edge, the dot product of two rows of the aggregated node features
  `x_out = segment_sum(norm · x[row], col)`. The kernel does the scaling `x[row] · norm` and the row dot products in two
  pallas_calls over zero-padded arrays and leaves the gathers and the scatter-add to the same host operations the reference
  uses. At the ideal instance the two products differ by commutativity only, a lane sum and a host sum are the same finite
  sum, and the padding rows are cut off again before they are read; so both runs end with the reference's last stage of the
  arguments in the result buffer (`Cert.KernelIdeal.Hand.run`; the reference's own run read stage by stage). No law used
  needs finiteness, so the precondition is never opened. The ideal pass rewrote nothing, so `preserves` is `True`.
-/
import proofs.«156202_j64244120814278_1_alg».proof.Defs
import proofs.«156202_j64244120814278_1_alg».proof.Proof.Gen.Kernel
import proofs.«156202_j64244120814278_1_alg».proof.Proof.Gen.Kernel.Frame
import proofs.«156202_j64244120814278_1_alg».proof.Proof.Gen.KernelIdeal
import proofs.«156202_j64244120814278_1_alg».proof.Proof.Gen.KernelIdeal.Frame
import proofs.«156202_j64244120814278_1_alg».proof.Proof.Gen.ReferenceIdeal
import proofs.«156202_j64244120814278_1_alg».proof.Proof.Gen.Pre_finite_inputs
import proofs.«156202_j64244120814278_1_alg».proof.Proof.RefRun
import proofs.«156202_j64244120814278_1_alg».proof.Proof.RefRead
import proofs.«156202_j64244120814278_1_alg».proof.Proof.KernelValue
import Idealize.ShloMosaic.Adequacy
import Idealize.ShloMosaic.Init

noncomputable section

namespace Cert.Proof

open Idealize.ShloMosaic Idealize.SL.Sem

/-- The word-level kernel runs, nothing faults, and its arguments end unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the arguments both idealized programs end with the reference's last stage of the
    arguments in the result buffer. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v66_eq, (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
